-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S1024x1024 : Shape := ⟨2, ![1024, 1024]⟩
abbrev S16x1024 : Shape := ⟨2, ![16, 1024]⟩
abbrev S1024x16 : Shape := ⟨2, ![1024, 16]⟩
abbrev S1x1024 : Shape := ⟨2, ![1, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bitsLt_bf16_f32 : FTy.bits .bf16 < FTy.bits .f32
  transposes_S1024x1024_p1_0_S1024x1024 : S1024x1024.Transposes [1, 0] S1024x1024
  inb_S16x1024_S16x1024_0_0 : ∀ a, (![0, 0] : Fin 2 → Nat) a + S16x1024.size a ≤ S16x1024.size a
  h_S16x1024 : 0 < S16x1024.numel
  transposes_S16x1024_p1_0_S1024x16 : S16x1024.Transposes [1, 0] S1024x16
  transposes_S1024x16_p1_0_S16x1024 : S1024x16.Transposes [1, 0] S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Sums.lean ====
/-
  Dot products over the first `n` columns.

  A rank-2 array is read at natural-number coordinates (`at2`, zero outside the array), so that the dot
  product of a row of one array with a row of another can be taken over the columns below any bound
  `n` (`pdot`). Over the extended reals addition is associative and commutative, so the dot product over
  `n + b` columns is the one over the first `n` plus the sum over the next block of `b` (`pdot_add`), and over
  all the columns it is the `Fin`-indexed sum of the products (`pdot_full`). No distributivity is used, so nothing
  here needs the entries to be finite.
-/
import Idealize.ShloMosaic.PureOps.Ideal
import Idealize.ShloMosaic.Lib.ValueIdx
import Mathlib.Algebra.BigOperators.Group.Finset.Basic
import Mathlib.Algebra.BigOperators.Fin

noncomputable section

open scoped BigOperators
open Idealize.ShloMosaic Idealize.ShloMosaic.ValueIdx

namespace Cert.Lora

/-- A rank-2 array read at natural-number coordinates: zero outside the array. -/
def at2 {n0 n1 : Nat} (a : (⟨2, ![n0, n1]⟩ : Shape).Idx → EReal) (r d : ℕ) : EReal :=
  if h : r < n0 ∧ d < n1 then a (ix2 ⟨r, h.1⟩ ⟨d, h.2⟩) else 0

/-- Inside the array it is the entry. -/
theorem at2_of_lt {n0 n1 : Nat} (a : (⟨2, ![n0, n1]⟩ : Shape).Idx → EReal) (r d : ℕ) (hr : r < n0) (hd : d < n1) :
    at2 a r d = a (ix2 ⟨r, hr⟩ ⟨d, hd⟩) := dif_pos ⟨hr, hd⟩

/-- At the values of two coordinates it is the entry at them. -/
theorem at2_fin {n0 n1 : Nat} (a : (⟨2, ![n0, n1]⟩ : Shape).Idx → EReal) (r : Fin n0) (d : Fin n1) :
    at2 a r.val d.val = a (ix2 r d) := dif_pos ⟨r.isLt, d.isLt⟩

/-- The dot product of two rows over the columns below `n`. -/
def pdot (u v : ℕ → EReal) (n : ℕ) : EReal := ∑ d ∈ Finset.range n, u d * v d

/-- Over no column it is zero. -/
theorem pdot_zero (u v : ℕ → EReal) : pdot u v 0 = 0 := Finset.sum_range_zero _

/-- One more block of `b` columns adds that block's products. -/
theorem pdot_add (u v : ℕ → EReal) (n b : ℕ) :
    pdot u v (n + b) = pdot u v n + ∑ k : Fin b, u (n + k.val) * v (n + k.val) := by
  unfold pdot
  rw [Finset.sum_range_add, Finset.sum_range (fun x => u (n + x) * v (n + x))]

/-- The first block alone. -/
theorem pdot_first (u v : ℕ → EReal) (b : ℕ) :
    pdot u v b = 0 + ∑ k : Fin b, u (0 + k.val) * v (0 + k.val) := by
  have h := pdot_add u v 0 b
  rw [pdot_zero, Nat.zero_add] at h
  exact h

/-- Over all the columns of two arrays with `n1` columns: the sum of the products of the entries. -/
theorem pdot_full {n0 m0 n1 : Nat} (a : (⟨2, ![n0, n1]⟩ : Shape).Idx → EReal)
    (w : (⟨2, ![m0, n1]⟩ : Shape).Idx → EReal) (r : Fin n0) (o : Fin m0) :
    pdot (at2 a r.val) (at2 w o.val) n1 = ∑ d : Fin n1, a (ix2 r d) * w (ix2 o d) := by
  unfold pdot
  rw [Finset.sum_range]
  exact Finset.sum_congr rfl fun d _ => by rw [at2_fin, at2_fin]

end Cert.Lora

end
-- ==== Proof.Spec.lean ====
/-
  What the adapted linear layer computes, stated once over arrays of literal shapes.

  At row `ρ` and output column `o` the result is
      (x[ρ,·] · W[o,·] + b[o]) + (∑ r, (x[ρ,·] · A[r,·]) · B[o,r]) · 2
  on the extended reals, the dot products over all 4096 columns (`lin`). The kernel reaches the two kinds of dot
  product block by block: after the step over the `k`-th block of 1024 columns its two running sums hold the dot products
  over the first `(k + 1) · 1024` columns (`accAt`, `xaAt`), one step adding the next block's products (`pdot_step`),
  and after the last block it forms the result from them (`outAt`). Only associativity and commutativity of the sum are used.
-/
import proofs.«172884_j13726715478237_1_alg».proof.Proof.Sums
import Idealize.ShloMosaic.PureOps.Ideal.Laws

noncomputable section

open scoped BigOperators
open Idealize.ShloMosaic Idealize.ShloMosaic.ValueIdx

namespace Cert.Lora

/-- The adapter's scale, the number 2 as the programs write it. -/
abbrev two : EReal := Ideal.ofBits .f32 0x40000000#32

/-- A rank-2 array of extended reals. -/
abbrev Arr2 (n0 n1 : Nat) : Type := (⟨2, ![n0, n1]⟩ : Shape).Idx → EReal

/-- One more block of 1024 columns, the `k`-th: the dot product over the first `k · 1024` columns plus the block's
    products is the dot product over the first `(k + 1) · 1024`. -/
theorem pdot_step (u v : ℕ → EReal) (k : ℕ) (f g : Fin 1024 → EReal)
    (hf : ∀ j : Fin 1024, f j = u (k * 1024 + j.val)) (hg : ∀ j : Fin 1024, g j = v (k * 1024 + j.val)) :
    pdot u v (k * 1024) + ∑ j : Fin 1024, f j * g j = pdot u v ((k + 1) * 1024) := by
  rw [Nat.succ_mul, pdot_add]
  exact congrArg (pdot u v (k * 1024) + ·) (Finset.sum_congr rfl fun j _ => by rw [hf j, hg j])

/-- The first block: from zero. -/
theorem pdot_step_zero (u v : ℕ → EReal) (f g : Fin 1024 → EReal)
    (hf : ∀ j : Fin 1024, f j = u (0 * 1024 + j.val)) (hg : ∀ j : Fin 1024, g j = v (0 * 1024 + j.val)) :
    (0 : EReal) + ∑ j : Fin 1024, f j * g j = pdot u v ((0 + 1) * 1024) := by
  rw [← pdot_step u v 0 f g hf hg, Nat.zero_mul, pdot_zero]

/-- The result at row `ρ` and column `o`: the base product plus the bias, plus twice the rank-16 adapter's product. -/
def lin (X : Arr2 8192 4096) (W : Arr2 4096 4096) (b2 : Arr2 1 4096) (A : Arr2 16 4096) (B : Arr2 4096 16)
    (ρ o : ℕ) : EReal :=
  (pdot (at2 X ρ) (at2 W o) 4096 + at2 b2 0 o)
    + (∑ r : Fin 16, pdot (at2 X ρ) (at2 A r.val) 4096 * at2 B o r.val) * two

/-- The base running sum of block-row `bi`, block-column `bj` after the step over column block `k`. -/
def accAt (X : Arr2 8192 4096) (W : Arr2 4096 4096) (bi bj k : ℕ) : Arr2 1024 1024 :=
  fun y => pdot (at2 X (bi * 1024 + (y 0).val)) (at2 W (bj * 1024 + (y 1).val)) ((k + 1) * 1024)

/-- The adapter's running sum of block-row `bi` after the step over column block `k`. -/
def xaAt (X : Arr2 8192 4096) (A : Arr2 16 4096) (bi k : ℕ) : Arr2 1024 16 :=
  fun y => pdot (at2 X (bi * 1024 + (y 0).val)) (at2 A (y 1).val) ((k + 1) * 1024)

/-- The output block of block-row `bi`, block-column `bj`. -/
def outAt (X : Arr2 8192 4096) (W : Arr2 4096 4096) (b2 : Arr2 1 4096) (A : Arr2 16 4096) (B : Arr2 4096 16)
    (bi bj : ℕ) : Arr2 1024 1024 :=
  fun y => lin X W b2 A B (bi * 1024 + (y 0).val) (bj * 1024 + (y 1).val)

/-- One step of the base running sum, at `(p, q)`: what the step before left plus this block's products is what this
    step leaves, when the blocks read the arrays' block-row `bi`, block-column `bj` and column block `k`. -/
theorem accAt_step (X : Arr2 8192 4096) (W : Arr2 4096 4096) (bi bj k : ℕ) (prev xb wb : Arr2 1024 1024)
    (p q : Fin 1024)
    (hprev : prev (ix2 p q) = pdot (at2 X (bi * 1024 + p.val)) (at2 W (bj * 1024 + q.val)) (k * 1024))
    (hx : ∀ j : Fin 1024, xb (ix2 p j) = at2 X (bi * 1024 + p.val) (k * 1024 + j.val))
    (hw : ∀ j : Fin 1024, wb (ix2 q j) = at2 W (bj * 1024 + q.val) (k * 1024 + j.val)) :
    prev (ix2 p q) + ∑ j : Fin 1024, xb (ix2 p j) * wb (ix2 q j) = accAt X W bi bj k (ix2 p q) := by
  rw [hprev]
  exact pdot_step _ _ k _ _ hx hw

/-- One step of the adapter's running sum, at `(p, r)`. -/
theorem xaAt_step (X : Arr2 8192 4096) (A : Arr2 16 4096) (bi k : ℕ) (prev : Arr2 1024 16) (xb : Arr2 1024 1024)
    (ab : Arr2 16 1024) (p : Fin 1024) (r : Fin 16)
    (hprev : prev (ix2 p r) = pdot (at2 X (bi * 1024 + p.val)) (at2 A r.val) (k * 1024))
    (hx : ∀ j : Fin 1024, xb (ix2 p j) = at2 X (bi * 1024 + p.val) (k * 1024 + j.val))
    (ha : ∀ j : Fin 1024, ab (ix2 r j) = at2 A r.val (k * 1024 + j.val)) :
    prev (ix2 p r) + ∑ j : Fin 1024, xb (ix2 p j) * ab (ix2 r j) = xaAt X A bi k (ix2 p r) := by
  rw [hprev]
  exact pdot_step _ _ k _ _ hx ha

/-- The output block's entry `(p, q)` from the two running sums after the last column block, the `B` block and the bias block. -/
theorem outAt_eq (X : Arr2 8192 4096) (W : Arr2 4096 4096) (b2 : Arr2 1 4096) (A : Arr2 16 4096) (B : Arr2 4096 16)
    (bi bj k : ℕ) (hk : k = 3) (acc : Arr2 1024 1024) (xa lb : Arr2 1024 16) (bias : Arr2 1 1024)
    (hacc : acc = accAt X W bi bj k) (hxa : xa = xaAt X A bi k)
    (hb : ∀ (q : Fin 1024) (r : Fin 16), lb (ix2 q r) = at2 B (bj * 1024 + q.val) r.val)
    (hbias : ∀ q : Fin 1024, bias (ix2 (0 : Fin 1) q) = at2 b2 0 (bj * 1024 + q.val)) (p q : Fin 1024) :
    (acc (ix2 p q) + bias (ix2 (0 : Fin 1) q)) + (∑ r : Fin 16, xa (ix2 p r) * lb (ix2 q r)) * two
      = outAt X W b2 A B bi bj (ix2 p q) := by
  subst hk hacc hxa
  rw [hbias q, Finset.sum_congr rfl fun r _ => by rw [hb q r]]
  rfl

/-- The same result over the arrays as the programs take them: `x` of shape [4, 2048, 4096], the bias a vector. -/
def lin3 (x : (⟨3, ![4, 2048, 4096]⟩ : Shape).Idx → EReal) (W : Arr2 4096 4096)
    (b : (⟨1, ![4096]⟩ : Shape).Idx → EReal) (A : Arr2 16 4096) (B : Arr2 4096 16)
    (p : Fin 4) (s : Fin 2048) (o : Fin 4096) : EReal :=
  (∑ d : Fin 4096, x (ix3 p s d) * W (ix2 o d) + b (ix1 o))
    + (∑ r : Fin 16, (∑ d : Fin 4096, x (ix3 p s d) * A (ix2 r d)) * B (ix2 o r)) * two

/-- Row `p · 2048 + s` of the flattened `x` is row `(p, s)` of `x`, and the bias row is the bias vector: then the flat
    result at that row is the result at `(p, s, o)`. -/
theorem lin_eq_lin3 (x : (⟨3, ![4, 2048, 4096]⟩ : Shape).Idx → EReal) (X : Arr2 8192 4096) (W : Arr2 4096 4096)
    (b : (⟨1, ![4096]⟩ : Shape).Idx → EReal) (b2 : Arr2 1 4096) (A : Arr2 16 4096) (B : Arr2 4096 16)
    (p : Fin 4) (s : Fin 2048) (o : Fin 4096) (ρ : Fin 8192) (hρ : ρ.val = p.val * 2048 + s.val)
    (hX : ∀ d : Fin 4096, X (ix2 ρ d) = x (ix3 p s d)) (hb : b2 (ix2 (0 : Fin 1) o) = b (ix1 o)) :
    lin X W b2 A B ρ.val o.val = lin3 x W b A B p s o := by
  unfold lin lin3
  have h0 : at2 b2 0 o.val = b (ix1 o) := (at2_fin b2 (0 : Fin 1) o).trans hb
  rw [pdot_full X W ρ o, h0]
  have hr : ∀ r : Fin 16, pdot (at2 X ρ.val) (at2 A r.val) 4096 * at2 B o.val r.val
      = (∑ d : Fin 4096, x (ix3 p s d) * A (ix2 r d)) * B (ix2 o r) := fun r => by
    rw [pdot_full X A ρ r, at2_fin B o r]
    exact congrArg (· * B (ix2 o r)) (Finset.sum_congr rfl fun d _ => by rw [hX d])
  rw [Finset.sum_congr rfl fun r _ => hr r]
  exact congrArg (fun z => (z + b (ix1 o)) + _) (Finset.sum_congr rfl fun d _ => by rw [hX d])

end Cert.Lora

end
-- ==== Proof.KBlocks.lean ====
/-
  The arrays the kernel region reads, and its windows' blocks read at an entry.

  The region finds `x` flattened to [8192, 4096] (row `p · 2048 + s` is row `(p, s)` of `x`) and the bias as one row
  [1, 4096]; `W`, `A` and `B` are the arguments themselves. Grid point `t` of the 8 × 4 × 4 grid is block-row `t / 16`,
  block-column `t / 4 % 4` and column block `t % 4`; its `x` block is rows `(t / 16) · 1024 + ·`, columns `(t % 4) · 1024 + ·`
  of the flattened `x`, and likewise for `W`, `A`, `B` and the bias, each window by its own index map.
-/
import proofs.«172884_j13726715478237_1_alg».proof.Proof.Gen.KernelIdeal.Frame
import proofs.«172884_j13726715478237_1_alg».proof.Proof.Spec
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx Cert.Lora

variable (m : (ℓ : Loc nD τ sig) → Buf (Elt Ideal) ℓ)

/-! ## The arrays as the region finds them -/

/-- `x`, flattened to [8192, 4096]. -/
abbrev Xarr (c : Dev nD) : Arr2 8192 4096 := V m c main_v0
/-- `W` [4096, 4096]. -/
abbrev Warr (c : Dev nD) : Arr2 4096 4096 := V m c main_arg1
/-- `A` [16, 4096]. -/
abbrev Aarr (c : Dev nD) : Arr2 16 4096 := V m c main_arg3
/-- `B` [4096, 16]. -/
abbrev Barr (c : Dev nD) : Arr2 4096 16 := V m c main_arg4
/-- The bias as one row [1, 4096]. -/
abbrev Brow (c : Dev nD) : Arr2 1 4096 := V m c main_v1

/-- The flattened `x` is the host's reshape of the argument. -/
theorem Xarr_eq (c : Dev nD) :
    Xarr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The bias row is the host's reshape of the argument. -/
theorem Brow_eq (c : Dev nD) :
    Brow m c = shapeCast S1x4096 (m ((c : Thread nD τ).loc main_arg2)) shapeCasts_S4096_S1x4096 := by
  show StableHlo.after hostOps0 (fun b => m (c, b)) (Proc.devRef .tc main_v1) = _
  after_results
  rfl

/-- Row `p · 2048 + s` of the flattened `x` is row `(p, s)` of `x`. -/
theorem Xarr_apply (c : Dev nD) (p : Fin 4) (s : Fin 2048) (d : Fin 4096) (ρ : Fin 8192)
    (hρ : ρ.val = p.val * 2048 + s.val) :
    Xarr m c (ix2 ρ d) = m ((c : Thread nD τ).loc main_arg0) (ix3 p s d) := by
  rw [Xarr_eq]
  exact shapeCast_apply _ _ _ _ (by
    show ((⟨3, ![4, 2048, 4096]⟩ : Shape).rowMajor (ix3 p s d)).val = ((⟨2, ![8192, 4096]⟩ : Shape).rowMajor (ix2 ρ d)).val
    rw [Shape.rowMajor_val_three, Shape.rowMajor_val_two]
    show (p.val * 2048 + s.val) * 4096 + d.val = ρ.val * 4096 + d.val
    rw [hρ])

/-- The bias row at `(0, o)` is the bias at `o`. -/
theorem Brow_apply (c : Dev nD) (o : Fin 4096) :
    Brow m c (ix2 (0 : Fin 1) o) = m ((c : Thread nD τ).loc main_arg2) (ix1 o) := by
  rw [Brow_eq]
  exact shapeCast_a_1a_apply _ _ (0 : Fin 1) o

/-! ## The windows' index maps, over the grid -/

/-- Each window's block index at point `t`, from `t`'s block-row `t / 16`, block-column `t / 4 % 4` and column block `t % 4`. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val % 4
    ∧ win0_3.index t (0 : Fin 2) = t.val / 4 % 4 ∧ win0_3.index t (1 : Fin 2) = 0
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

/-- Every output block is written back by some point. -/
theorem idx_onto : ∀ (q0 : Fin 8) (q1 : Fin 4), ∃ t : Fin cfg0.N,
    (cfg0.win 5).flush t = true ∧ win0_5.index t (0 : Fin 2) = q0.val ∧ win0_5.index t (1 : Fin 2) = q1.val :=
  (by decide +kernel : ∀ (q0 : Fin 8) (q1 : Fin 4), ∃ t : Fin grid0.N,
    win0_5.flush t = true ∧ win0_5.index t (0 : Fin 2) = q0.val ∧ win0_5.index t (1 : Fin 2) = q1.val)

theorem lt_N (t : Fin cfg0.N) : t.val < 128 := lt_of_lt_of_eq t.isLt (show cfg0.N = 128 from N_0)

/-! ## The blocks -/

/-- Point `t`'s `x` block. -/
abbrev xblk (c : Dev nD) (t : Fin cfg0.N) : Arr2 1024 1024 := iblk m c 0 t
/-- Point `t`'s `W` block. -/
abbrev wblk (c : Dev nD) (t : Fin cfg0.N) : Arr2 1024 1024 := iblk m c 1 t
/-- Point `t`'s `A` block. -/
abbrev ablk (c : Dev nD) (t : Fin cfg0.N) : Arr2 16 1024 := iblk m c 2 t
/-- Point `t`'s `B` block. -/
abbrev bblk (c : Dev nD) (t : Fin cfg0.N) : Arr2 1024 16 := iblk m c 3 t
/-- Point `t`'s bias block. -/
abbrev biasblk (c : Dev nD) (t : Fin cfg0.N) : Arr2 1 1024 := iblk m c 4 t

theorem xblk_apply (c : Dev nD) (t : Fin cfg0.N) (p k : Fin 1024) :
    xblk m c t (ix2 p k) = at2 (Xarr m c) (t.val / 16 * 1024 + p.val) (t.val % 4 * 1024 + k.val) := by
  obtain ⟨e0, e1, -⟩ := idx_facts t
  have hN := lt_N t
  have hp := p.isLt
  have hk := k.isLt
  rw [at2_of_lt _ _ _ (by omega) (by omega)]
  unfold xblk iblk
  rw [View.read_apply]
  show V m c main_v0 _ = V m c main_v0 _
  congr 1
  funext a
  apply Fin.ext
  match a with
  | ⟨0, _⟩ => show win0_0.index t (0 : Fin 2) * 1024 + 1 * p.val = t.val / 16 * 1024 + p.val; rw [e0]; omega
  | ⟨1, _⟩ => show win0_0.index t (1 : Fin 2) * 1024 + 1 * k.val = t.val % 4 * 1024 + k.val; rw [e1]; omega

theorem wblk_apply (c : Dev nD) (t : Fin cfg0.N) (q k : Fin 1024) :
    wblk m c t (ix2 q k) = at2 (Warr m c) (t.val / 4 % 4 * 1024 + q.val) (t.val % 4 * 1024 + k.val) := by
  obtain ⟨-, -, e0, e1, -⟩ := idx_facts t
  have hN := lt_N t
  have hq := q.isLt
  have hk := k.isLt
  rw [at2_of_lt _ _ _ (by omega) (by omega)]
  unfold wblk iblk
  rw [View.read_apply]
  show V m c main_arg1 _ = V m c main_arg1 _
  congr 1
  funext a
  apply Fin.ext
  match a with
  | ⟨0, _⟩ => show win0_1.index t (0 : Fin 2) * 1024 + 1 * q.val = t.val / 4 % 4 * 1024 + q.val; rw [e0]; omega
  | ⟨1, _⟩ => show win0_1.index t (1 : Fin 2) * 1024 + 1 * k.val = t.val % 4 * 1024 + k.val; rw [e1]; omega

theorem ablk_apply (c : Dev nD) (t : Fin cfg0.N) (r : Fin 16) (k : Fin 1024) :
    ablk m c t (ix2 r k) = at2 (Aarr m c) r.val (t.val % 4 * 1024 + k.val) := by
  obtain ⟨-, -, -, -, e0, e1, -⟩ := idx_facts t
  have hN := lt_N t
  have hr := r.isLt
  have hk := k.isLt
  rw [at2_of_lt _ _ _ (by omega) (by omega)]
  unfold ablk iblk
  rw [View.read_apply]
  show V m c main_arg3 _ = V m c main_arg3 _
  congr 1
  funext a
  apply Fin.ext
  match a with
  | ⟨0, _⟩ => show win0_2.index t (0 : Fin 2) * 16 + 1 * r.val = r.val; rw [e0]; omega
  | ⟨1, _⟩ => show win0_2.index t (1 : Fin 2) * 1024 + 1 * k.val = t.val % 4 * 1024 + k.val; rw [e1]; omega

theorem bblk_apply (c : Dev nD) (t : Fin cfg0.N) (q : Fin 1024) (r : Fin 16) :
    bblk m c t (ix2 q r) = at2 (Barr m c) (t.val / 4 % 4 * 1024 + q.val) r.val := by
  obtain ⟨-, -, -, -, -, -, e0, e1, -⟩ := idx_facts t
  have hN := lt_N t
  have hq := q.isLt
  have hr := r.isLt
  rw [at2_of_lt _ _ _ (by omega) (by omega)]
  unfold bblk iblk
  rw [View.read_apply]
  show V m c main_arg4 _ = V m c main_arg4 _
  congr 1
  funext a
  apply Fin.ext
  match a with
  | ⟨0, _⟩ => show win0_3.index t (0 : Fin 2) * 1024 + 1 * q.val = t.val / 4 % 4 * 1024 + q.val; rw [e0]; omega
  | ⟨1, _⟩ => show win0_3.index t (1 : Fin 2) * 16 + 1 * r.val = r.val; rw [e1]; omega

theorem biasblk_apply (c : Dev nD) (t : Fin cfg0.N) (q : Fin 1024) :
    biasblk m c t (ix2 (0 : Fin 1) q) = at2 (Brow m c) 0 (t.val / 4 % 4 * 1024 + q.val) := by
  obtain ⟨-, -, -, -, -, -, -, -, e0, e1, -⟩ := idx_facts t
  have hN := lt_N t
  have hq := q.isLt
  rw [at2_of_lt _ _ _ (by omega) (by omega)]
  unfold biasblk iblk
  rw [View.read_apply]
  show V m c main_v1 _ = V m c main_v1 _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * q.val = t.val / 4 % 4 * 1024 + q.val; rw [e1]; omega

end Cert.KernelIdeal.KVal

end
-- ==== Proof.Pieces.lean ====
/-
  What one run of the kernel body leaves in its two running sums and in the output block, case by case.

  At the first column block the body zeroes both running sums and then updates them, so they end at the update of zero;
  at a later block they end at the update of what the step before left; at the last block the output block is
  formed from the two sums as this very step leaves them, together with the `B` block and the bias block. Each store
  writes its whole buffer, so what a buffer holds afterwards is the value last stored, and a load of a buffer after a
  store to it reads that value.
-/
import proofs.«172884_j13726715478237_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Zero offsets, however they are written. -/
theorem hz : (![0, 0] : Fin 2 → Nat) = fun _ => 0 := funext fun a => by fin_cases a <;> rfl

/-- First column block: the base running sum ends at the update of zero. -/
theorem acc_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i) (x0 : Vec F S1024x1024 .f32) (x1 : Vec F S1024x1024 .f32) (x2 : Vec F S16x1024 .f32) (x3 : Vec F S1024x16 .f32) (x4 : Vec F S1x1024 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- First column block: the adapter's running sum ends at the update of zero. -/
theorem xa_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i) (x0 : Vec F S1024x1024 .f32) (x1 : Vec F S1024x1024 .f32) (x2 : Vec F S16x1024 .f32) (x3 : Vec F S1024x16 .f32) (x4 : Vec F S1x1024 .f32) :
    sout0_A_1 c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz, View.readCov_unit_zero (S := S1024x16) _ hz]
  simp only [View.readAt_eq_ld, harg3.read_unread, harg5.read_unread, View.ld_unit_zero (S := S1024x1024) hz,
    View.ld_unit_zero (S := S16x1024) hz]

/-- A middle column block: the base running sum ends at the update of what it held. -/
theorem acc_mid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i) (x0 : Vec F S1024x1024 .f32) (x1 : Vec F S1024x1024 .f32) (x2 : Vec F S16x1024 .f32) (x3 : Vec F S1024x16 .f32) (x4 : Vec F S1x1024 .f32) (xs0 : Vec F S1024x1024 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg9.read_unread,
    View.ld_unit_zero (S := S1024x1024) hz]

/-- A middle column block: the adapter's running sum ends at the update of what it held. -/
theorem xa_mid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i) (x0 : Vec F S1024x1024 .f32) (x1 : Vec F S1024x1024 .f32) (x2 : Vec F S16x1024 .f32) (x3 : Vec F S1024x16 .f32) (x4 : Vec F S1x1024 .f32) (xs0 : Vec F S1024x1024 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg5.read_unread, harg10.read_unread,
    View.ld_unit_zero (S := S1024x1024) hz, View.ld_unit_zero (S := S16x1024) hz, View.ld_unit_zero (S := S1024x16) hz]

/-- The last column block: the base running sum ends at the update of what it held. -/
theorem acc_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x1024 .f32) (x1 : Vec F S1024x1024 .f32) (x2 : Vec F S16x1024 .f32) (x3 : Vec F S1024x16 .f32) (x4 : Vec F S1x1024 .f32) (xs0 : Vec F S1024x1024 .f32) (xs1 : Vec F S1024x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg9.read_unread,
    View.ld_unit_zero (S := S1024x1024) hz]

/-- The last column block: the adapter's running sum ends at the update of what it held. -/
theorem xa_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x1024 .f32) (x1 : Vec F S1024x1024 .f32) (x2 : Vec F S16x1024 .f32) (x3 : Vec F S1024x16 .f32) (x4 : Vec F S1x1024 .f32) (xs0 : Vec F S1024x1024 .f32) (xs1 : Vec F S1024x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg5.read_unread, harg10.read_unread,
    View.ld_unit_zero (S := S1024x1024) hz, View.ld_unit_zero (S := S16x1024) hz, View.ld_unit_zero (S := S1024x16) hz]

/-- The last column block: the output block is formed from the two running sums as this step leaves them. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x1024 .f32) (x1 : Vec F S1024x1024 .f32) (x2 : Vec F S16x1024 .f32) (x3 : Vec F S1024x16 .f32) (x4 : Vec F S1x1024 .f32) (xs0 : Vec F S1024x1024 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1
      = k0_pay6 x3 (k0_pay5 x0 x2 xs1) (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz, View.readCov_unit_zero (S := S1024x16) _ hz, View.readCov_unit_zero (S := S1024x1024) _ hz]
  simp only [View.readAt_eq_ld, harg3.read_unread, harg4.read_unread, harg5.read_unread, harg6.read_unread,
    harg7.read_unread, harg9.read_unread, harg10.read_unread, View.ld_unit_zero (S := S1024x1024) hz,
    View.ld_unit_zero (S := S16x1024) hz, View.ld_unit_zero (S := S1024x16) hz, View.ld_unit_zero (S := S1x1024) hz]

end Cert.KernelIdeal.Pieces

end
-- ==== Proof.Payloads.lean ====
/-
  The values the kernel body stores, read at one entry, on the extended reals.

  Changing a number's format is the identity there, and a matrix product into a zero accumulator is the plain sum of
  products over the contracted axis. So the body's update of the base running sum adds, at `(p, q)`, the products of row
  `p` of the `x` block with row `q` of the `W` block (`upd_acc_apply`; the `W` block enters transposed); its update
  of the adapter's running sum adds the products of row `p` of the `x` block with row `r` of the `A` block
  (`upd_xa_apply`); the two resets store zero; and the final value at `(p, q)` is the base sum plus the bias at `q`, plus
  twice the sum over the rank of the adapter's running sum at `(p, r)` times the `B` block at `(q, r)` (`fin_apply`).
-/
import proofs.«172884_j13726715478237_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The three matrix products at an entry -/

/-- The base product's dimension numbers: rows by the contracted columns, times the contracted rows by columns. -/
abbrev DW : DotDims S1024x1024 S1024x1024 S1024x1024 := dot_S1024x1024_S1024x1024_S1024x1024_1_0_0_1_n_n
/-- The adapter's first product: [1024, 1024] times [1024, 16]. -/
abbrev DA : DotDims S1024x1024 S1024x16 S1024x16 := dot_S1024x1024_S1024x16_S1024x16_1_0_0_1_n_n
/-- The adapter's second product: [1024, 16] times [16, 1024]. -/
abbrev DB : DotDims S1024x16 S16x1024 S1024x1024 := dot_S1024x16_S16x1024_S1024x1024_1_0_0_1_n_n

theorem lhs_DW_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_DW_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_DW_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_DW_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The base product into zero, at `(p, q)`: the sum over `k` of the left operand at `(p, k)` times the right at `(k, q)`. -/
theorem matmul_DW_apply {φ₁ φ₂ : FTy} (l : FVec Ideal S1024x1024 φ₁) (r : FVec Ideal S1024x1024 φ₂) (p q : Fin 1024) :
    matmul dot_S1024x1024_S1024x1024_S1024x1024_1_0_0_1_n_n none l r (constant S1024x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_DW_0 _ _
    | ⟨1, _⟩ => exact (lhs_DW_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_DW_0 _ _).trans hk
    | ⟨1, _⟩ => exact rhs_DW_1 _ _)
  rw [el, er]

theorem lhs_DA_0 (i : S1024x16.Idx) (q : dot_S1024x1024_S1024x16_S1024x16_1_0_0_1_n_n.contr.Idx) :
    (dot_S1024x1024_S1024x16_S1024x16_1_0_0_1_n_n.lhsIdx i q 0).val = (i 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
theorem lhs_DA_1 (i : S1024x16.Idx) (q : dot_S1024x1024_S1024x16_S1024x16_1_0_0_1_n_n.contr.Idx) :
    (dot_S1024x1024_S1024x16_S1024x16_1_0_0_1_n_n.lhsIdx i q 1).val = (q ⟨0, by decide⟩).val :=
  dot_S1024x1024_S1024x16_S1024x16_1_0_0_1_n_n.lhsIdx_val_of_single rfl i q
theorem rhs_DA_0 (i : S1024x16.Idx) (q : dot_S1024x1024_S1024x16_S1024x16_1_0_0_1_n_n.contr.Idx) :
    (dot_S1024x1024_S1024x16_S1024x16_1_0_0_1_n_n.rhsIdx i q 0).val = (q ⟨0, by decide⟩).val :=
  dot_S1024x1024_S1024x16_S1024x16_1_0_0_1_n_n.rhsIdx_val_of_single rfl i q
theorem rhs_DA_1 (i : S1024x16.Idx) (q : dot_S1024x1024_S1024x16_S1024x16_1_0_0_1_n_n.contr.Idx) :
    (dot_S1024x1024_S1024x16_S1024x16_1_0_0_1_n_n.rhsIdx i q 1).val = (i 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

/-- The adapter's first product into zero, at `(p, r)`: the sum over `k` of the left at `(p, k)` times the right at `(k, r)`. -/
theorem matmul_DA_apply {φ₁ φ₂ : FTy} (l : FVec Ideal S1024x1024 φ₁) (r : FVec Ideal S1024x16 φ₂) (p : Fin 1024) (c : Fin 16) :
    matmul dot_S1024x1024_S1024x16_S1024x16_1_0_0_1_n_n none l r (constant S1024x16 .f32 0x00000000#32) (ix2 p c)
      = ∑ k : Fin 1024, l (ix2 p k) * r (ix2 k c) := by
  simp only [matmul]
  rw [Ideal.matmul_constant_zero_apply, ← Equiv.sum_comp (ValueIdx.contrEquiv1 dot_S1024x1024_S1024x16_S1024x16_1_0_0_1_n_n 1024 rfl rfl).symm]
  refine Finset.sum_congr rfl fun k _ => ?_
  have hk := ValueIdx.contrEquiv1_symm_val dot_S1024x1024_S1024x16_S1024x16_1_0_0_1_n_n 1024 rfl rfl k
  have el : dot_S1024x1024_S1024x16_S1024x16_1_0_0_1_n_n.lhsIdx (ix2 p c) ((ValueIdx.contrEquiv1 dot_S1024x1024_S1024x16_S1024x16_1_0_0_1_n_n 1024 rfl rfl).symm k) = ix2 p k := funext fun a => Fin.ext (by
    match a with
    | ⟨0, _⟩ => exact lhs_DA_0 _ _
    | ⟨1, _⟩ => exact (lhs_DA_1 _ _).trans hk)
  have er : dot_S1024x1024_S1024x16_S1024x16_1_0_0_1_n_n.rhsIdx (ix2 p c) ((ValueIdx.contrEquiv1 dot_S1024x1024_S1024x16_S1024x16_1_0_0_1_n_n 1024 rfl rfl).symm k) = ix2 k c := funext fun a => Fin.ext (by
    match a with
    | ⟨0, _⟩ => exact (rhs_DA_0 _ _).trans hk
    | ⟨1, _⟩ => exact rhs_DA_1 _ _)
  rw [el, er]

theorem lhs_DB_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhs_DB_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhs_DB_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhs_DB_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- The adapter's second product into zero, at `(p, q)`: the sum over the rank `r` of the left at `(p, r)` times the right at `(r, q)`. -/
theorem matmul_DB_apply {φ₁ φ₂ : FTy} (l : FVec Ideal S1024x16 φ₁) (r : FVec Ideal S16x1024 φ₂) (p q : Fin 1024) :
    matmul dot_S1024x16_S16x1024_S1024x1024_1_0_0_1_n_n none l r (constant S1024x1024 .f32 0x00000000#32) (ix2 p q)
      = ∑ k : Fin 16, l (ix2 p k) * r (ix2 k q) := by
  simp only [matmul]
  rw [Ideal.matmul_constant_zero_apply, ← Equiv.sum_comp (ValueIdx.contrEquiv1 dot_S1024x16_S16x1024_S1024x1024_1_0_0_1_n_n 16 rfl rfl).symm]
  refine Finset.sum_congr rfl fun k _ => ?_
  have hk := ValueIdx.contrEquiv1_symm_val dot_S1024x16_S16x1024_S1024x1024_1_0_0_1_n_n 16 rfl rfl k
  have el : dot_S1024x16_S16x1024_S1024x1024_1_0_0_1_n_n.lhsIdx (ix2 p q) ((ValueIdx.contrEquiv1 dot_S1024x16_S16x1024_S1024x1024_1_0_0_1_n_n 16 rfl rfl).symm k) = ix2 p k := funext fun a => Fin.ext (by
    match a with
    | ⟨0, _⟩ => exact lhs_DB_0 _ _
    | ⟨1, _⟩ => exact (lhs_DB_1 _ _).trans hk)
  have er : dot_S1024x16_S16x1024_S1024x1024_1_0_0_1_n_n.rhsIdx (ix2 p q) ((ValueIdx.contrEquiv1 dot_S1024x16_S16x1024_S1024x1024_1_0_0_1_n_n 16 rfl rfl).symm k) = ix2 k q := funext fun a => Fin.ext (by
    match a with
    | ⟨0, _⟩ => exact (rhs_DB_0 _ _).trans hk
    | ⟨1, _⟩ => exact rhs_DB_1 _ _)
  rw [el, er]

/-! ## The stored values at an entry -/

/-- The reset of the base running sum stores zero. -/
theorem reset_acc_apply (y : S1024x1024.Idx) : (k0_pay1 (F := Ideal)) y = 0 := by
  unfold k0_pay1
  refine (congrFun (shapeCast_self _ _) y).trans ?_
  exact Ideal.ofBits_zero_f32

/-- The reset of the adapter's running sum stores zero. -/
theorem reset_xa_apply (y : S1024x16.Idx) : (k0_pay2 (F := Ideal)) y = 0 := by
  unfold k0_pay2
  refine (congrFun (shapeCast_self _ _) y).trans ?_
  exact Ideal.ofBits_zero_f32

/-- The update of the base running sum, at `(p, q)`: what it held plus the products of row `p` of the `x` block with row
    `q` of the `W` block. -/
theorem upd_acc_apply (x0 x1 acc : Vec Ideal S1024x1024 .f32) (p q : Fin 1024) :
    k0_pay4 x0 x1 acc (ix2 p q) = acc (ix2 p q) + ∑ k : Fin 1024, x0 (ix2 p k) * x1 (ix2 q k) := by
  unfold k0_pay4 k0_pay3
  refine (congrFun (shapeCast_self _ _) (ix2 p q)).trans ?_
  refine (addf_apply _ _ _).trans ?_
  refine congrArg (acc (ix2 p q) + ·) ?_
  refine (matmul_DW_apply _ _ p q).trans ?_
  refine Finset.sum_congr rfl fun k _ => ?_
  refine congr (congrArg HMul.hMul ?_) ?_
  · exact congrFun (shapeCast_self x0 _) (ix2 p k)
  · exact transpose_ix2_apply _ _ k q

/-- The update of the adapter's running sum, at `(p, r)`: what it held plus the products of row `p` of the `x` block with
    row `r` of the `A` block. -/
theorem upd_xa_apply (x0 : Vec Ideal S1024x1024 .f32) (x2 : Vec Ideal S16x1024 .f32) (xa : Vec Ideal S1024x16 .f32)
    (p : Fin 1024) (r : Fin 16) :
    k0_pay5 x0 x2 xa (ix2 p r) = xa (ix2 p r) + ∑ k : Fin 1024, x0 (ix2 p k) * x2 (ix2 r k) := by
  unfold k0_pay5 k0_pay3
  refine (congrFun (shapeCast_self _ _) (ix2 p r)).trans ?_
  refine (addf_apply _ _ _).trans ?_
  refine congrArg (xa (ix2 p r) + ·) ?_
  refine (matmul_DA_apply _ _ p r).trans ?_
  refine Finset.sum_congr rfl fun k _ => ?_
  refine congr (congrArg HMul.hMul ?_) ?_
  · exact congrFun (shapeCast_self x0 _) (ix2 p k)
  · exact transpose_ix2_apply _ _ k r

/-- The final value, at `(p, q)`: the base sum plus the bias at `q`, plus twice the sum over the rank of the adapter's
    running sum at `(p, r)` times the `B` block at `(q, r)`. -/
theorem fin_apply (x3 xa : Vec Ideal S1024x16 .f32) (acc : Vec Ideal S1024x1024 .f32) (x4 : Vec Ideal S1x1024 .f32)
    (p q : Fin 1024) :
    k0_pay6 x3 xa acc x4 (ix2 p q)
      = (acc (ix2 p q) + x4 (ix2 (0 : Fin 1) q)) + (∑ r : Fin 16, xa (ix2 p r) * x3 (ix2 q r)) * Ideal.ofBits .f32 0x40000000#32 := by
  unfold k0_pay6
  refine (addf_apply _ _ _).trans ?_
  refine congr (congrArg HAdd.hAdd ?_) ?_
  · refine (addf_apply _ _ _).trans ?_
    refine congrArg (acc (ix2 p q) + ·) ?_
    refine (broadcastTo_1b_ab_apply _ _ p q).trans ?_
    exact congrFun (shapeCast_self x4 _) (ix2 (0 : Fin 1) q)
  · refine (mulf_apply _ _ _).trans ?_
    refine congrArg (· * Ideal.ofBits .f32 0x40000000#32) ?_
    refine (matmul_DB_apply _ _ p q).trans ?_
    refine Finset.sum_congr rfl fun r _ => ?_
    exact congrArg (xa (ix2 p r) * ·) (transpose_ix2_apply _ _ r q)

end Cert.KernelIdeal.Pay

end
-- ==== Proof.KInv.lean ====
/-
  What the kernel's two running sums hold after each grid point.

  By induction on the point: at a point of the first column block (`t % 4 = 0`) both sums are reset and then updated,
  so they hold the dot products over the first 1024 columns; at a later point they hold what the point before left
  (same block-row and block-column, the column block before) plus this block's products, so after the step over column
  block `k` they hold the dot products over the first `(k + 1) · 1024` columns (`inv_all`).
-/
import proofs.«172884_j13726715478237_1_alg».proof.Proof.KBlocks
import proofs.«172884_j13726715478237_1_alg».proof.Proof.Pieces
import proofs.«172884_j13726715478237_1_alg».proof.Proof.Payloads

set_option maxRecDepth 16384

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx Cert.Lora

variable (m : (ℓ : Loc nD τ sig) → Buf (Elt Ideal) ℓ)

/-- After point `n`: the base running sum and the adapter's hold the dot products over the first `(n % 4 + 1) · 1024`
    columns, for block-row `n / 16` and block-column `n / 4 % 4`. -/
def Inv (c : Dev nD) (n : ℕ) : Prop := ∀ hn : n < cfg0.N,
    (outsAt0 m c n hn).2.1 = accAt (Xarr m c) (Warr m c) (n / 16) (n / 4 % 4) (n % 4)
    ∧ (outsAt0 m c n hn).2.2 = xaAt (Xarr m c) (Aarr m c) (n / 16) (n % 4)

/-- A point of the first column block: from zero. -/
theorem inv_first (c : Dev nD) (t : Fin cfg0.N) (h0 : t.val % 4 = 0) : Inv m c t.val := by
  intro hn
  have hN := lt_N t
  have h1 : ¬t.val % 4 = 3 := by omega
  rw [outsAt0_A m c t h0 h1]
  dsimp only
  refine ⟨?_, ?_⟩
  ·
    refine (Pieces.acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).trans ?_
    funext y
    obtain ⟨p, q, rfl⟩ : ∃ (p q : Fin 1024), y = ix2 p q := ⟨y 0, y 1, eq_ix2 y⟩
    refine (Pay.upd_acc_apply (xblk m c t) (wblk m c t) (k0_pay1 (F := Ideal)) p q).trans ?_
    refine accAt_step (Xarr m c) (Warr m c) (t.val / 16) (t.val / 4 % 4) (t.val % 4) (k0_pay1 (F := Ideal))
      (xblk m c t) (wblk m c t) p q ?_ (fun j => xblk_apply m c t p j) (fun j => wblk_apply m c t q j)
    rw [Pay.reset_acc_apply, h0, Nat.zero_mul, pdot_zero]
  ·
    refine (Pieces.xa_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).trans ?_
    funext y
    obtain ⟨p, r, rfl⟩ : ∃ (p : Fin 1024) (r : Fin 16), y = ix2 p r := ⟨y 0, y 1, eq_ix2 y⟩
    refine (Pay.upd_xa_apply (xblk m c t) (ablk m c t) (k0_pay2 (F := Ideal)) p r).trans ?_
    refine xaAt_step (Xarr m c) (Aarr m c) (t.val / 16) (t.val % 4) (k0_pay2 (F := Ideal))
      (xblk m c t) (ablk m c t) p r ?_ (fun j => xblk_apply m c t p j) (fun j => ablk_apply m c t r j)
    rw [Pay.reset_xa_apply, h0, Nat.zero_mul, pdot_zero]

/-- At a point of a later column block, the update of what the point before left in the base running sum is the dot
    products over the first `(t % 4 + 1) · 1024` columns. -/
theorem upd_acc_eq (c : Dev nD) (t : Fin cfg0.N) (h0 : ¬t.val % 4 = 0) (ih : Inv m c (t.val - 1)) :
    k0_pay4 (xblk m c t) (wblk m c t) (outsAt0 m c (t.val - 1) (Nat.lt_of_le_of_lt (Nat.sub_le _ _) t.isLt)).2.1
      = accAt (Xarr m c) (Warr m c) (t.val / 16) (t.val / 4 % 4) (t.val % 4) := by
  have hN := lt_N t
  have e1 : (t.val - 1) / 16 = t.val / 16 := by omega
  have e2 : (t.val - 1) / 4 % 4 = t.val / 4 % 4 := by omega
  have e3 : (t.val - 1) % 4 + 1 = t.val % 4 := by omega
  have ia := (ih (Nat.lt_of_le_of_lt (Nat.sub_le _ _) t.isLt)).1
  funext y
  obtain ⟨p, q, rfl⟩ : ∃ (p q : Fin 1024), y = ix2 p q := ⟨y 0, y 1, eq_ix2 y⟩
  refine (Pay.upd_acc_apply (xblk m c t) (wblk m c t) (outsAt0 m c (t.val - 1) (Nat.lt_of_le_of_lt (Nat.sub_le _ _) t.isLt)).2.1 p q).trans ?_
  refine accAt_step (Xarr m c) (Warr m c) (t.val / 16) (t.val / 4 % 4) (t.val % 4) (outsAt0 m c (t.val - 1) (Nat.lt_of_le_of_lt (Nat.sub_le _ _) t.isLt)).2.1
    (xblk m c t) (wblk m c t) p q ?_ (fun j => xblk_apply m c t p j) (fun j => wblk_apply m c t q j)
  rw [ia]; unfold accAt; rw [e1, e2, e3]

/-- The same for the adapter's running sum. -/
theorem upd_xa_eq (c : Dev nD) (t : Fin cfg0.N) (h0 : ¬t.val % 4 = 0) (ih : Inv m c (t.val - 1)) :
    k0_pay5 (xblk m c t) (ablk m c t) (outsAt0 m c (t.val - 1) (Nat.lt_of_le_of_lt (Nat.sub_le _ _) t.isLt)).2.2
      = xaAt (Xarr m c) (Aarr m c) (t.val / 16) (t.val % 4) := by
  have hN := lt_N t
  have e1 : (t.val - 1) / 16 = t.val / 16 := by omega
  have e3 : (t.val - 1) % 4 + 1 = t.val % 4 := by omega
  have ix := (ih (Nat.lt_of_le_of_lt (Nat.sub_le _ _) t.isLt)).2
  funext y
  obtain ⟨p, r, rfl⟩ : ∃ (p : Fin 1024) (r : Fin 16), y = ix2 p r := ⟨y 0, y 1, eq_ix2 y⟩
  refine (Pay.upd_xa_apply (xblk m c t) (ablk m c t) (outsAt0 m c (t.val - 1) (Nat.lt_of_le_of_lt (Nat.sub_le _ _) t.isLt)).2.2 p r).trans ?_
  refine xaAt_step (Xarr m c) (Aarr m c) (t.val / 16) (t.val % 4) (outsAt0 m c (t.val - 1) (Nat.lt_of_le_of_lt (Nat.sub_le _ _) t.isLt)).2.2
    (xblk m c t) (ablk m c t) p r ?_ (fun j => xblk_apply m c t p j) (fun j => ablk_apply m c t r j)
  rw [ix]; unfold xaAt; rw [e1, e3]

/-- A point of a later column block: what the point before left, plus this block's products. -/
theorem inv_next (c : Dev nD) (t : Fin cfg0.N) (h0 : ¬t.val % 4 = 0) (ih : Inv m c (t.val - 1)) : Inv m c t.val := by
  intro hn
  by_cases h1 : t.val % 4 = 3
  · rw [outsAt0_C m c t h0 h1]
    dsimp only
    exact ⟨(Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans (upd_acc_eq m c t h0 ih),
      (Pieces.xa_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans (upd_xa_eq m c t h0 ih)⟩
  · rw [outsAt0_B m c t h0 h1]
    dsimp only
    exact ⟨(Pieces.acc_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans (upd_acc_eq m c t h0 ih),
      (Pieces.xa_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans (upd_xa_eq m c t h0 ih)⟩

/-- After every point. -/
theorem inv_all (c : Dev nD) (n : ℕ) : Inv m c n := by
  induction n with
  | zero => intro hn; exact inv_first m c ⟨0, hn⟩ rfl hn
  | succ n ih =>
    intro hn
    by_cases h0 : (n + 1) % 4 = 0
    · exact inv_first m c ⟨n + 1, hn⟩ h0 hn
    · exact inv_next m c ⟨n + 1, hn⟩ h0 (by show Inv m c (n + 1 - 1); rw [Nat.add_sub_cancel]; exact ih) hn

end Cert.KernelIdeal.KVal

end
-- ==== Proof.KOut.lean ====
/-
  The output block at a point of the last column block.

  There the body forms the output block from the two running sums as this very step leaves them, the `B` block and the
  bias block: its entry `(p, q)` is the whole result at row `(t / 16) · 1024 + p`, column `(t / 4 % 4) · 1024 + q`.
-/
import proofs.«172884_j13726715478237_1_alg».proof.Proof.KInv

set_option maxRecDepth 16384

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx Cert.Lora

variable (m : (ℓ : Loc nD τ sig) → Buf (Elt Ideal) ℓ)

/-- The final value as a whole block: from the two running sums after the last column block, a `B` block and a bias block
    that read block-column `bj`, the value stored is the result's block. -/
theorem fin_eq (X : Arr2 8192 4096) (W : Arr2 4096 4096) (b2 : Arr2 1 4096) (A : Arr2 16 4096) (B : Arr2 4096 16)
    (bi bj : ℕ) (lb : Vec Ideal S1024x16 .f32) (bias : Vec Ideal S1x1024 .f32)
    (hb : ∀ (q : Fin 1024) (r : Fin 16), lb (ix2 q r) = at2 B (bj * 1024 + q.val) r.val)
    (hbias : ∀ q : Fin 1024, bias (ix2 (0 : Fin 1) q) = at2 b2 0 (bj * 1024 + q.val)) :
    k0_pay6 lb (xaAt X A bi 3) (accAt X W bi bj 3) bias = outAt X W b2 A B bi bj := by
  funext y
  obtain ⟨p, q, rfl⟩ : ∃ (p q : Fin 1024), y = ix2 p q := ⟨y 0, y 1, eq_ix2 y⟩
  refine (Pay.fin_apply lb (xaAt X A bi 3) (accAt X W bi bj 3) bias p q).trans ?_
  exact outAt_eq X W b2 A B bi bj 3 rfl (accAt X W bi bj 3) (xaAt X A bi 3) lb bias rfl rfl hb hbias p q

/-- At a point of the last column block the output block holds the result's block. -/
theorem out_inv (c : Dev nD) (t : Fin cfg0.N) (h1 : t.val % 4 = 3) :
    (outsAt0 m c t.val t.isLt).1
      = outAt (Xarr m c) (Warr m c) (Brow m c) (Aarr m c) (Barr m c) (t.val / 16) (t.val / 4 % 4) := by
  have h0 : ¬t.val % 4 = 0 := by omega
  have hacc := (upd_acc_eq m c t h0 (inv_all m c (t.val - 1))).trans
    (congrArg (accAt (Xarr m c) (Warr m c) (t.val / 16) (t.val / 4 % 4)) h1)
  have hxa := (upd_xa_eq m c t h0 (inv_all m c (t.val - 1))).trans
    (congrArg (xaAt (Xarr m c) (Aarr m c) (t.val / 16)) h1)
  have hsub := congrFun (congr (congrArg (k0_pay6 (F := Ideal) (bblk m c t)) hxa) hacc) (biasblk m c t)
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans
    (hsub.trans (fin_eq (Xarr m c) (Warr m c) (Brow m c) (Aarr m c) (Barr m c) (t.val / 16) (t.val / 4 % 4)
      (bblk m c t) (biasblk m c t) (fun q r => bblk_apply m c t q r) (fun q => biasblk_apply m c t q)))

end Cert.KernelIdeal.KVal

end
-- ==== Proof.KFinal.lean ====
/-
  The kernel program's result array.

  Only the points of the last column block write an output block back, and block `(t / 16, t / 4 % 4)` written at such a
  point is that block of ONE function of the arrays, the whole result at `(row, column)` (`outArr`); those blocks tile
  the [8192, 4096] array, so after the region the array is that function (`final`). The program's result is its
  reshape to [4, 2048, 4096] (`result`, `run`).
-/
import proofs.«172884_j13726715478237_1_alg».proof.Proof.KOut
import Idealize.ShloMosaic.Lib.StableHlo.Run

set_option maxRecDepth 16384

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx Cert.Lora
open Idealize.ShloMosaic.Pipeline (Dat)

variable (m : (ℓ : Loc nD τ sig) → Buf (Elt Ideal) ℓ) (ρ : Dev nD → PrngReg)

/-- The [8192, 4096] array the region leaves: the whole result at every `(row, column)`. -/
def outArr (c : Dev nD) : Arr2 8192 4096 :=
  fun i => lin (Xarr m c) (Warr m c) (Brow m c) (Aarr m c) (Barr m c) (i 0).val (i 1).val

/-- What a point of the last column block writes back is its block of that array. -/
theorem flushed_eq (c : Dev nD) (t : Fin cfg0.N) (hf : (cfg0.win 5).flush t = true) :
    (dats m 0 c).flushed 5 t = ((cfg0.win 5).blk t).view.read (Elt Ideal) (outArr m c) := by
  have h3 : t.val % 4 = 3 := (flush0_5 t).mp hf
  have hN := lt_N t
  show (cfg0.win 5).cut (grid0.coords t) ((dats m 0 c).after 5 t) = _
  rw [after0_5, out_inv m c t h3]
  obtain ⟨-, -, -, -, -, -, -, -, -, -, e0, e1⟩ := idx_facts t
  funext j
  rw [View.read_apply]
  have a0 : ((((cfg0.win 5).blk t).view.emb j) 0).val = t.val / 16 * 1024 + (j 0).val := by
    show win0_5.index t (0 : Fin 2) * 1024 + 1 * (j 0).val = _
    rw [e0]; omega
  have a1 : ((((cfg0.win 5).blk t).view.emb j) 1).val = t.val / 4 % 4 * 1024 + (j 1).val := by
    show win0_5.index t (1 : Fin 2) * 1024 + 1 * (j 1).val = _
    rw [e1]; omega
  show lin _ _ _ _ _ (t.val / 16 * 1024 + (j 0).val) (t.val / 4 % 4 * 1024 + (j 1).val)
    = lin _ _ _ _ _ ((((cfg0.win 5).blk t).view.emb j) 0).val ((((cfg0.win 5).blk t).view.emb j) 1).val
  rw [a0, a1]

/-- Every entry of the array is in the block some point of the last column block writes back. -/
theorem cover (c : Dev nD) (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, hf, q0, q1⟩ := idx_onto ⟨(i 0).val / 1024, by omega⟩ ⟨(i 1).val / 1024, by omega⟩
  refine ⟨t, hf, ?_⟩
  show i ∈ ((View.whole main_v2).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [q0]; dsimp only; omega
  | ⟨1, _⟩ =>
    show win0_5.index t (1 : Fin 2) * 1024 ≤ (i 1).val ∧ (i 1).val < win0_5.index t (1 : Fin 2) * 1024 + 1024
    rw [q1]; dsimp only; omega

/-- The array after the region. -/
theorem final (c : Dev nD) : (dats m 0 c).arrAt 5 cfg0.N = outArr m c :=
  (dats m 0 c).arrAt_eq_of_cover 5 (outArr m c) (flushed_eq m c) (cover c)

/-- The program's result: that array reshaped to [4, 2048, 4096]. -/
def result (c : Dev nD) : Buf (Elt Ideal) ((c : Thread nD τ).loc main_v3) :=
  shapeCast S4x2048x4096 (outArr m c) shapeCasts_S8192x4096_S4x2048x4096

/-- The host reshape after the region reads the region's array. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  exact congrArg (fun z => shapeCast S4x2048x4096 z shapeCasts_S8192x4096_S4x2048x4096)
    ((Pipeline.withArrays_arr spec0 launch0.win.arr_inj c _ _ 5).trans (final m c))

/-- Every weakly fair execution of the kernel program ends with its result at `result` and its arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.KVal

end
-- ==== Proof.RefValue.lean ====
/-
  The reference's result, read entry by entry.

  The reference forms `x · Wᵀ + b` and `((x · Aᵀ) · Bᵀ) · 2` by three contractions over one axis each and adds them; at
  `(p, s, o)` that is `(∑ d, x[p,s,d] · W[o,d] + b[o]) + (∑ r, (∑ d, x[p,s,d] · A[r,d]) · B[o,r]) · 2` on the extended
  reals, which is the function `Cert.Lora.lin3` of the five arguments.
-/
import proofs.«172884_j13726715478237_1_alg».proof.Defs
import proofs.«172884_j13726715478237_1_alg».proof.Proof.Gen.ReferenceIdeal.Read
import proofs.«172884_j13726715478237_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Lora

/-- The result array as one function of the five argument arrays. -/
def result (x : Vec Ideal S4x2048x4096 .f32) (W : Vec Ideal S4096x4096 .f32) (b : Vec Ideal S4096 .f32)
    (A : Vec Ideal S16x4096 .f32) (B : Vec Ideal S4096x16 .f32) : Vec Ideal S4x2048x4096 .f32 :=
  fun i => lin3 x W b A B ⟨(i 0).val, (i 0).isLt⟩ ⟨(i 1).val, (i 1).isLt⟩ ⟨(i 2).val, (i 2).isLt⟩

/-- The reference's last stage is that function. -/
theorem stage_eq (x : Vec Ideal S4x2048x4096 .f32) (W : Vec Ideal S4096x4096 .f32) (b : Vec Ideal S4096 .f32)
    (A : Vec Ideal S16x4096 .f32) (B : Vec Ideal S4096x16 .f32) :
    val_main_v8 (F := Ideal) x W b A B = result x W b A B := by
  funext i
  have e0 : ∀ k : Fin 4096, lidx_main_v0 i k
      = ix3 (⟨(i 0).val, (i 0).isLt⟩ : Fin 4) (⟨(i 1).val, (i 1).isLt⟩ : Fin 2048) k := fun k =>
    funext fun a => Fin.ext (by match a with | ⟨0, _⟩ => rfl | ⟨1, _⟩ => rfl | ⟨2, _⟩ => rfl)
  have e1 : ∀ k : Fin 4096, ridx_main_v0 i k = ix2 (⟨(i 2).val, (i 2).isLt⟩ : Fin 4096) k := fun k =>
    funext fun a => Fin.ext (by match a with | ⟨0, _⟩ => rfl | ⟨1, _⟩ => rfl)
  have e2 : idx_main_v1 (idx_main_v2 i) = ix1 (⟨(i 2).val, (i 2).isLt⟩ : Fin 4096) :=
    funext fun a => Fin.ext (by match a with | ⟨0, _⟩ => rfl)
  have e3 : ∀ (r : Fin 16) (k : Fin 4096), lidx_main_v4 (lidx_main_v5 i r) k
      = ix3 (⟨(i 0).val, (i 0).isLt⟩ : Fin 4) (⟨(i 1).val, (i 1).isLt⟩ : Fin 2048) k := fun r k =>
    funext fun a => Fin.ext (by match a with | ⟨0, _⟩ => rfl | ⟨1, _⟩ => rfl | ⟨2, _⟩ => rfl)
  have e4 : ∀ (r : Fin 16) (k : Fin 4096), ridx_main_v4 (lidx_main_v5 i r) k = ix2 r k := fun r k =>
    funext fun a => Fin.ext (by match a with | ⟨0, _⟩ => rfl | ⟨1, _⟩ => rfl)
  have e5 : ∀ r : Fin 16, ridx_main_v5 i r = ix2 (⟨(i 2).val, (i 2).isLt⟩ : Fin 4096) r := fun r =>
    funext fun a => Fin.ext (by match a with | ⟨0, _⟩ => rfl | ⟨1, _⟩ => rfl)
  rw [val_main_v8_apply, val_main_v3_apply, val_main_v7_apply, val_main_v0_apply, val_main_v2_apply, val_main_v1_apply,
    val_main_v5_apply, val_main_v6_apply, val_main_cst_apply]
  simp only [val_main_v4_apply, e0, e1, e2, e3, e4, e5, Ideal.addf_def, Ideal.mulf_def, Ideal.ofBits_def]
  rfl

end Cert.ReferenceIdeal.RefValue

end
-- ==== Proof.Bridge.lean ====
/-
  The kernel program's result is the reference's function of the same arguments.

  The kernel leaves, at row `p · 2048 + s` and column `o` of its [8192, 4096] array, the whole result computed from the
  flattened `x` and the bias row; reshaped to [4, 2048, 4096] that entry sits at `(p, s, o)`, and since row
  `p · 2048 + s` of the flattened `x` is row `(p, s)` of `x` and the bias row is the bias, it is the reference's entry there.
-/
import proofs.«172884_j13726715478237_1_alg».proof.Proof.KFinal
import proofs.«172884_j13726715478237_1_alg».proof.Proof.RefValue

noncomputable section

open scoped BigOperators

namespace Cert.Proof.Bridge

open Idealize.ShloMosaic Idealize.ShloMosaic.TcCoe Idealize.SL.Sem Idealize.ShloMosaic.ValueIdx Cert.Lora
open Cert.KernelIdeal.KVal

theorem result_eq (m : (ℓ : Loc Cert.KernelIdeal.nD Cert.KernelIdeal.τ Cert.KernelIdeal.sig) → Buf (Elt Ideal) ℓ)
    (c : Dev Cert.KernelIdeal.nD) :
    Cert.KernelIdeal.KVal.result m c
      = Cert.ReferenceIdeal.RefValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  funext i
  have h0 : (i 0).val < 4 := (i 0).isLt
  have h1 : (i 1).val < 2048 := (i 1).isLt
  have h2 : (i 2).val < 4096 := (i 2).isLt
  have hW : Warr m c = m ((c.tc : Thread Cert.KernelIdeal.nD Cert.KernelIdeal.τ).loc Cert.KernelIdeal.main_arg1) := Cert.KernelIdeal.Gen.V_main_arg1 m c
  have hA : Aarr m c = m ((c.tc : Thread Cert.KernelIdeal.nD Cert.KernelIdeal.τ).loc Cert.KernelIdeal.main_arg3) := Cert.KernelIdeal.Gen.V_main_arg3 m c
  have hB : Barr m c = m ((c.tc : Thread Cert.KernelIdeal.nD Cert.KernelIdeal.τ).loc Cert.KernelIdeal.main_arg4) := Cert.KernelIdeal.Gen.V_main_arg4 m c
  unfold Cert.KernelIdeal.KVal.result Cert.ReferenceIdeal.RefValue.result
  refine (shapeCast_apply (outArr m c) _ i
    (ix2 (⟨(i 0).val * 2048 + (i 1).val, by omega⟩ : Fin 8192) (⟨(i 2).val, h2⟩ : Fin 4096)) ?_).trans ?_
  · show ((⟨2, ![8192, 4096]⟩ : Shape).rowMajor (ix2 (⟨(i 0).val * 2048 + (i 1).val, by omega⟩ : Fin 8192) (⟨(i 2).val, h2⟩ : Fin 4096))).val
      = ((⟨3, ![4, 2048, 4096]⟩ : Shape).rowMajor i).val
    rw [Shape.rowMajor_val_two, Shape.rowMajor_val_three]
    rfl
  · show lin (Xarr m c) (Warr m c) (Brow m c) (Aarr m c) (Barr m c) ((i 0).val * 2048 + (i 1).val) (i 2).val = _
    rw [hW, hA, hB]
    exact lin_eq_lin3 (m ((c.tc : Thread Cert.KernelIdeal.nD Cert.KernelIdeal.τ).loc Cert.KernelIdeal.main_arg0)) (Xarr m c) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Brow m c)
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) ⟨(i 0).val, h0⟩ ⟨(i 1).val, h1⟩ ⟨(i 2).val, h2⟩
      ⟨(i 0).val * 2048 + (i 1).val, by omega⟩ rfl
      (fun d => Xarr_apply m c ⟨(i 0).val, h0⟩ ⟨(i 1).val, h1⟩ d ⟨(i 0).val * 2048 + (i 1).val, by omega⟩ rfl)
      (Brow_apply m c ⟨(i 2).val, h2⟩)

end Cert.Proof.Bridge

end
-- ==== Proof.lean ====
/-
  A linear layer with a rank-16 adapter, fused into one tiled kernel, against its plain reference.

  Both programs compute, at `(p, s, o)`,
      (∑ d, x[p,s,d] · W[o,d] + b[o]) + (∑ r, (∑ d, x[p,s,d] · A[r,d]) · B[o,r]) · 2
  on the extended reals. The reference does so by three contractions. The kernel walks an 8 × 4 × 4 grid over blocks
  of 1024: for each output block it sums the base products and the adapter's first products column block by column
  block into two running sums (zeroed at the first column block), and at the last column block forms the output
  block from them; its number-format changes are the identity on the extended reals. A sum over 4096 columns is the
  sum of its four blocks' sums because addition of extended reals is associative and commutative; no other law is
  used, so the precondition that the inputs are finite is never opened.

  The two kernel frames are the generated ones; the reference's frame is its generated run with the result dropped; the
  idealization rewrote nothing. The value claim: the kernel's running sums by induction over the grid points
  (Proof/KInv.lean over Proof/Pieces.lean, Proof/Payloads.lean and Proof/KBlocks.lean), its result array from the blocks
  written back (Proof/KFinal.lean), the reference read entry by entry (Proof/RefValue.lean), and the two as one function
  (Proof/Bridge.lean, over Proof/Spec.lean and Proof/Sums.lean).
-/
import proofs.«172884_j13726715478237_1_alg».proof.Defs
import proofs.«172884_j13726715478237_1_alg».proof.Proof.Gen.Kernel
import proofs.«172884_j13726715478237_1_alg».proof.Proof.Gen.Kernel.Skeleton
import proofs.«172884_j13726715478237_1_alg».proof.Proof.Gen.Kernel.Launch
import proofs.«172884_j13726715478237_1_alg».proof.Proof.Gen.Kernel.Points
import proofs.«172884_j13726715478237_1_alg».proof.Proof.Gen.Kernel.Frame
import proofs.«172884_j13726715478237_1_alg».proof.Proof.Gen.KernelIdeal
import proofs.«172884_j13726715478237_1_alg».proof.Proof.Gen.KernelIdeal.Skeleton
import proofs.«172884_j13726715478237_1_alg».proof.Proof.Gen.KernelIdeal.Launch
import proofs.«172884_j13726715478237_1_alg».proof.Proof.Gen.KernelIdeal.Points
import proofs.«172884_j13726715478237_1_alg».proof.Proof.Gen.KernelIdeal.Frame
import proofs.«172884_j13726715478237_1_alg».proof.Proof.Gen.ReferenceIdeal
import proofs.«172884_j13726715478237_1_alg».proof.Proof.Gen.ReferenceIdeal.Run
import proofs.«172884_j13726715478237_1_alg».proof.Proof.Gen.ReferenceIdeal.Read
import proofs.«172884_j13726715478237_1_alg».proof.Proof.Gen.Pre_finite_inputs
import proofs.«172884_j13726715478237_1_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are one function of arguments that agree. -/
theorem algebraic : Cert.algebraic_KernelIdeal_ReferenceIdeal := by
  intro m ρ m' ρ' _ hagree
  refine ⟨fun c => Cert.KernelIdeal.KVal.result m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.KVal.result m c
  rw [Cert.ReferenceIdeal.Read.val_main_v8_eq, Cert.ReferenceIdeal.RefValue.stage_eq, (hagree c).1, (hagree c).2.1,
    (hagree c).2.2.1, (hagree c).2.2.2.1, (hagree c).2.2.2.2]
  exact (Cert.Proof.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
